-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512 : Shape := ⟨1, ![512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S32x4096x512 .f32) (main_arg1 : FVec F S512 .f32) (main_arg2 : FVec F S512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x4096x512 : Shape := ⟨3, ![32, 4096, 512]⟩
abbrev S512 : Shape := ⟨1, ![512]⟩
abbrev S1x512 : Shape := ⟨2, ![1, 512]⟩
abbrev S1x4096x512 : Shape := ⟨3, ![1, 4096, 512]⟩
abbrev S64x512 : Shape := ⟨2, ![64, 512]⟩
abbrev S1x64x512 : Shape := ⟨3, ![1, 64, 512]⟩
abbrev S1 : Shape := ⟨1, ![1]⟩
abbrev S1x1x1 : Shape := ⟨3, ![1, 1, 1]⟩
abbrev S1x1 : Shape := ⟨2, ![1, 1]⟩
abbrev S1x512x512 : Shape := ⟨3, ![1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S32x4096x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S32x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S1x512, .f32⟩
  | .local _ .vmem, ⟨3, _⟩ => ⟨S1x512, .f32⟩
  | .local _ .vmem, ⟨4, _⟩ => ⟨S1x4096x512, .f32⟩
  | .local _ .vmem, ⟨5, _⟩ => ⟨S1x4096x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S1x4096x512_S1x64x512_0_0_0 : ∀ a, (![0, 0, 0] : Fin 3 → Nat) a + S1x64x512.size a ≤ S1x4096x512.size a
  h_S1x64x512 : 0 < S1x64x512.numel
  shapeCasts_S1x64x512_S64x512 : S1x64x512.ShapeCasts S64x512
  inb_S1x4096x512_S1x64x512_0_64_0 : ∀ a, (![0, 64, 0] : Fin 3 → Nat) a + S1x64x512.size a ≤ S1x4096x512.size a
  inb_S1x4096x512_S1x64x512_0_128_0 : ∀ a, (![0, 128, 0] : Fin 3 → Nat) a + S1x64x512.size a ≤ S1x4096x512.size a
  inb_S1x4096x512_S1x64x512_0_192_0 : ∀ a, (![0, 192, 0] : Fin 3 → Nat) a + S1x64x512.size a ≤ S1x4096x512.size a
  inb_S1x4096x512_S1x64x512_0_256_0 : ∀ a, (![0, 256, 0] : Fin 3 → Nat) a + S1x64x512.size a ≤ S1x4096x512.size a
  inb_S1x4096x512_S1x64x512_0_320_0 : ∀ a, (![0, 320, 0] : Fin 3 → Nat) a + S1x64x512.size a ≤ S1x4096x512.size a
  inb_S1x4096x512_S1x64x512_0_384_0 : ∀ a, (![0, 384, 0] : Fin 3 → Nat) a + S1x64x512.size a ≤ S1x4096x512.size a
  inb_S1x4096x512_S1x64x512_0_448_0 : ∀ a, (![0, 448, 0] : Fin 3 → Nat) a + S1x64x512.size a ≤ S1x4096x512.size a
  inb_S1x4096x512_S1x64x512_0_512_0 : ∀ a, (![0, 512, 0] : Fin 3 → Nat) a + S1x64x512.size a ≤ S1x4096x512.size a
  inb_S1x4096x512_S1x64x512_0_576_0 : ∀ a, (![0, 576, 0] : Fin 3 → Nat) a + S1x64x512.size a ≤ S1x4096x512.size a
  inb_S1x4096x512_S1x64x512_0_640_0 : ∀ a, (![0, 640, 0] : Fin 3 → Nat) a + S1x64x512.size a ≤ S1x4096x512.size a
  inb_S1x4096x512_S1x64x512_0_704_0 : ∀ a, (![0, 704, 0] : Fin 3 → Nat) a + S1x64x512.size a ≤ S1x4096x512.size a
  inb_S1x4096x512_S1x64x512_0_768_0 : ∀ a, (![0, 768, 0] : Fin 3 → Nat) a + S1x64x512.size a ≤ S1x4096x512.size a
  inb_S1x4096x512_S1x64x512_0_832_0 : ∀ a, (![0, 832, 0] : Fin 3 → Nat) a + S1x64x512.size a ≤ S1x4096x512.size a
  inb_S1x4096x512_S1x64x512_0_896_0 : ∀ a, (![0, 896, 0] : Fin 3 → Nat) a + S1x64x512.size a ≤ S1x4096x512.size a
  inb_S1x4096x512_S1x64x512_0_960_0 : ∀ a, (![0, 960, 0] : Fin 3 → Nat) a + S1x64x512.size a ≤ S1x4096x512.size a
  inb_S1x4096x512_S1x64x512_0_1024_0 : ∀ a, (![0, 1024, 0] : Fin 3 → Nat) a + S1x64x512.size a ≤ S1x4096x512.size a
  inb_S1x4096x512_S1x64x512_0_1088_0 : ∀ a, (![0, 1088, 0] : Fin 3 → Nat) a + S1x64x512.size a ≤ S1x4096x512.size a
  inb_S1x4096x512_S1x64x512_0_1152_0 : ∀ a, (![0, 1152, 0] : Fin 3 → Nat) a + S1x64x512.size a ≤ S1x4096x512.size a
  inb_S1x4096x512_S1x64x512_0_1216_0 : ∀ a, (![0, 1216, 0] : Fin 3 → Nat) a + S1x64x512.size a ≤ S1x4096x512.size a
  inb_S1x4096x512_S1x64x512_0_1280_0 : ∀ a, (![0, 1280, 0] : Fin 3 → Nat) a + S1x64x512.size a ≤ S1x4096x512.size a
  inb_S1x4096x512_S1x64x512_0_1344_0 : ∀ a, (![0, 1344, 0] : Fin 3 → Nat) a + S1x64x512.size a ≤ S1x4096x512.size a
  inb_S1x4096x512_S1x64x512_0_1408_0 : ∀ a, (![0, 1408, 0] : Fin 3 → Nat) a + S1x64x512.size a ≤ S1x4096x512.size a
  inb_S1x4096x512_S1x64x512_0_1472_0 : ∀ a, (![0, 1472, 0] : Fin 3 → Nat) a + S1x64x512.size a ≤ S1x4096x512.size a
  inb_S1x4096x512_S1x64x512_0_1536_0 : ∀ a, (![0, 1536, 0] : Fin 3 → Nat) a + S1x64x512.size a ≤ S1x4096x512.size a
  inb_S1x4096x512_S1x64x512_0_1600_0 : ∀ a, (![0, 1600, 0] : Fin 3 → Nat) a + S1x64x512.size a ≤ S1x4096x512.size a
  inb_S1x4096x512_S1x64x512_0_1664_0 : ∀ a, (![0, 1664, 0] : Fin 3 → Nat) a + S1x64x512.size a ≤ S1x4096x512.size a
  inb_S1x4096x512_S1x64x512_0_1728_0 : ∀ a, (![0, 1728, 0] : Fin 3 → Nat) a + S1x64x512.size a ≤ S1x4096x512.size a
  inb_S1x4096x512_S1x64x512_0_1792_0 : ∀ a, (![0, 1792, 0] : Fin 3 → Nat) a + S1x64x512.size a ≤ S1x4096x512.size a
  inb_S1x4096x512_S1x64x512_0_1856_0 : ∀ a, (![0, 1856, 0] : Fin 3 → Nat) a + S1x64x512.size a ≤ S1x4096x512.size a
  inb_S1x4096x512_S1x64x512_0_1920_0 : ∀ a, (![0, 1920, 0] : Fin 3 → Nat) a + S1x64x512.size a ≤ S1x4096x512.size a
  inb_S1x4096x512_S1x64x512_0_1984_0 : ∀ a, (![0, 1984, 0] : Fin 3 → Nat) a + S1x64x512.size a ≤ S1x4096x512.size a
  inb_S1x4096x512_S1x64x512_0_2048_0 : ∀ a, (![0, 2048, 0] : Fin 3 → Nat) a + S1x64x512.size a ≤ S1x4096x512.size a
  inb_S1x4096x512_S1x64x512_0_2112_0 : ∀ a, (![0, 2112, 0] : Fin 3 → Nat) a + S1x64x512.size a ≤ S1x4096x512.size a
  inb_S1x4096x512_S1x64x512_0_2176_0 : ∀ a, (![0, 2176, 0] : Fin 3 → Nat) a + S1x64x512.size a ≤ S1x4096x512.size a
  inb_S1x4096x512_S1x64x512_0_2240_0 : ∀ a, (![0, 2240, 0] : Fin 3 → Nat) a + S1x64x512.size a ≤ S1x4096x512.size a
  inb_S1x4096x512_S1x64x512_0_2304_0 : ∀ a, (![0, 2304, 0] : Fin 3 → Nat) a + S1x64x512.size a ≤ S1x4096x512.size a
  inb_S1x4096x512_S1x64x512_0_2368_0 : ∀ a, (![0, 2368, 0] : Fin 3 → Nat) a + S1x64x512.size a ≤ S1x4096x512.size a
  inb_S1x4096x512_S1x64x512_0_2432_0 : ∀ a, (![0, 2432, 0] : Fin 3 → Nat) a + S1x64x512.size a ≤ S1x4096x512.size a
  inb_S1x4096x512_S1x64x512_0_2496_0 : ∀ a, (![0, 2496, 0] : Fin 3 → Nat) a + S1x64x512.size a ≤ S1x4096x512.size a
  inb_S1x4096x512_S1x64x512_0_2560_0 : ∀ a, (![0, 2560, 0] : Fin 3 → Nat) a + S1x64x512.size a ≤ S1x4096x512.size a
  inb_S1x4096x512_S1x64x512_0_2624_0 : ∀ a, (![0, 2624, 0] : Fin 3 → Nat) a + S1x64x512.size a ≤ S1x4096x512.size a
  inb_S1x4096x512_S1x64x512_0_2688_0 : ∀ a, (![0, 2688, 0] : Fin 3 → Nat) a + S1x64x512.size a ≤ S1x4096x512.size a
  inb_S1x4096x512_S1x64x512_0_2752_0 : ∀ a, (![0, 2752, 0] : Fin 3 → Nat) a + S1x64x512.size a ≤ S1x4096x512.size a
  inb_S1x4096x512_S1x64x512_0_2816_0 : ∀ a, (![0, 2816, 0] : Fin 3 → Nat) a + S1x64x512.size a ≤ S1x4096x512.size a
  inb_S1x4096x512_S1x64x512_0_2880_0 : ∀ a, (![0, 2880, 0] : Fin 3 → Nat) a + S1x64x512.size a ≤ S1x4096x512.size a
  inb_S1x4096x512_S1x64x512_0_2944_0 : ∀ a, (![0, 2944, 0] : Fin 3 → Nat) a + S1x64x512.size a ≤ S1x4096x512.size a
  inb_S1x4096x512_S1x64x512_0_3008_0 : ∀ a, (![0, 3008, 0] : Fin 3 → Nat) a + S1x64x512.size a ≤ S1x4096x512.size a
  inb_S1x4096x512_S1x64x512_0_3072_0 : ∀ a, (![0, 3072, 0] : Fin 3 → Nat) a + S1x64x512.size a ≤ S1x4096x512.size a
  inb_S1x4096x512_S1x64x512_0_3136_0 : ∀ a, (![0, 3136, 0] : Fin 3 → Nat) a + S1x64x512.size a ≤ S1x4096x512.size a
  inb_S1x4096x512_S1x64x512_0_3200_0 : ∀ a, (![0, 3200, 0] : Fin 3 → Nat) a + S1x64x512.size a ≤ S1x4096x512.size a
  inb_S1x4096x512_S1x64x512_0_3264_0 : ∀ a, (![0, 3264, 0] : Fin 3 → Nat) a + S1x64x512.size a ≤ S1x4096x512.size a
  inb_S1x4096x512_S1x64x512_0_3328_0 : ∀ a, (![0, 3328, 0] : Fin 3 → Nat) a + S1x64x512.size a ≤ S1x4096x512.size a
  inb_S1x4096x512_S1x64x512_0_3392_0 : ∀ a, (![0, 3392, 0] : Fin 3 → Nat) a + S1x64x512.size a ≤ S1x4096x512.size a
  inb_S1x4096x512_S1x64x512_0_3456_0 : ∀ a, (![0, 3456, 0] : Fin 3 → Nat) a + S1x64x512.size a ≤ S1x4096x512.size a
  inb_S1x4096x512_S1x64x512_0_3520_0 : ∀ a, (![0, 3520, 0] : Fin 3 → Nat) a + S1x64x512.size a ≤ S1x4096x512.size a
  inb_S1x4096x512_S1x64x512_0_3584_0 : ∀ a, (![0, 3584, 0] : Fin 3 → Nat) a + S1x64x512.size a ≤ S1x4096x512.size a
  inb_S1x4096x512_S1x64x512_0_3648_0 : ∀ a, (![0, 3648, 0] : Fin 3 → Nat) a + S1x64x512.size a ≤ S1x4096x512.size a
  inb_S1x4096x512_S1x64x512_0_3712_0 : ∀ a, (![0, 3712, 0] : Fin 3 → Nat) a + S1x64x512.size a ≤ S1x4096x512.size a
  inb_S1x4096x512_S1x64x512_0_3776_0 : ∀ a, (![0, 3776, 0] : Fin 3 → Nat) a + S1x64x512.size a ≤ S1x4096x512.size a
  inb_S1x4096x512_S1x64x512_0_3840_0 : ∀ a, (![0, 3840, 0] : Fin 3 → Nat) a + S1x64x512.size a ≤ S1x4096x512.size a
  inb_S1x4096x512_S1x64x512_0_3904_0 : ∀ a, (![0, 3904, 0] : Fin 3 → Nat) a + S1x64x512.size a ≤ S1x4096x512.size a
  inb_S1x4096x512_S1x64x512_0_3968_0 : ∀ a, (![0, 3968, 0] : Fin 3 → Nat) a + S1x64x512.size a ≤ S1x4096x512.size a
  inb_S1x4096x512_S1x64x512_0_4032_0 : ∀ a, (![0, 4032, 0] : Fin 3 → Nat) a + S1x64x512.size a ≤ S1x4096x512.size a
  shapeCasts_S64x512_S1x64x512 : S64x512.ShapeCasts S1x64x512
  reduces_S1x64x512_S1 : S1x64x512.Reduces [1, 2] S1
  shapeCasts_S1_S1x1x1 : S1.ShapeCasts S1x1x1
  inpos_S1x1x1_p0_0_0 : ∀ a, (![0, 0, 0] : Fin 3 → Nat) a < S1x1x1.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x1_S1x512 : S1x1.Broadcasts S1x512
  inb_S1x4096x512_S1x512x512_0_0_0 : ∀ a, (![0, 0, 0] : Fin 3 → Nat) a + S1x512x512.size a ≤ S1x4096x512.size a
  h_S1x512x512 : 0 < S1x512x512.numel
  shapeCasts_S1x512x512_S512x512 : S1x512x512.ShapeCasts S512x512
  broadcasts_S1x512_S512x512 : S1x512.Broadcasts S512x512
  shapeCasts_S512x512_S1x512x512 : S512x512.ShapeCasts S1x512x512
  inb_S1x4096x512_S1x512x512_0_512_0 : ∀ a, (![0, 512, 0] : Fin 3 → Nat) a + S1x512x512.size a ≤ S1x4096x512.size a
  inb_S1x4096x512_S1x512x512_0_1024_0 : ∀ a, (![0, 1024, 0] : Fin 3 → Nat) a + S1x512x512.size a ≤ S1x4096x512.size a
  inb_S1x4096x512_S1x512x512_0_1536_0 : ∀ a, (![0, 1536, 0] : Fin 3 → Nat) a + S1x512x512.size a ≤ S1x4096x512.size a
  inb_S1x4096x512_S1x512x512_0_2048_0 : ∀ a, (![0, 2048, 0] : Fin 3 → Nat) a + S1x512x512.size a ≤ S1x4096x512.size a
  inb_S1x4096x512_S1x512x512_0_2560_0 : ∀ a, (![0, 2560, 0] : Fin 3 → Nat) a + S1x512x512.size a ≤ S1x4096x512.size a
  inb_S1x4096x512_S1x512x512_0_3072_0 : ∀ a, (![0, 3072, 0] : Fin 3 → Nat) a + S1x512x512.size a ≤ S1x4096x512.size a
  inb_S1x4096x512_S1x512x512_0_3584_0 : ∀ a, (![0, 3584, 0] : Fin 3 → Nat) a + S1x512x512.size a ≤ S1x4096x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x4096x512.size a
  hwx0_0 : ∀ i : grid0.Coords, EltTy.bits .f32 = 32 ∨ (Rect.block (s := S32x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x512.size a ≤ S32x4096x512.size a
  hwx0_3 : ∀ i : grid0.Coords, EltTy.bits .f32 = 32 ∨ (Rect.block (s := S32x4096x512) S1x4096x512.size (cc0_transform_3 i) (hinb0_3 i)).WholeWords (EltTy.packing .f32)

variable [Facts₀]

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S512 : Shape := ⟨1, ![512]⟩
abbrev S_ : Shape := ⟨0, ![]⟩
abbrev S32 : Shape := ⟨1, ![32]⟩
abbrev S32x1x1 : Shape := ⟨3, ![32, 1, 1]⟩
abbrev S1x1x512 : Shape := ⟨3, ![1, 1, 512]⟩

abbrev nBuf : Space → Nat
  | .hbm => 32
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S32, .f32⟩
  | .hbm, ⟨5, _⟩ => ⟨S32x1x1, .f32⟩
  | .hbm, ⟨6, _⟩ => ⟨S_, .f32⟩
  | .hbm, ⟨7, _⟩ => ⟨S32x1x1, .f32⟩
  | .hbm, ⟨8, _⟩ => ⟨S32x1x1, .f32⟩
  | .hbm, ⟨9, _⟩ => ⟨S32x4096x512, .f32⟩
  | .hbm, ⟨10, _⟩ => ⟨S32x4096x512, .f32⟩
  | .hbm, ⟨11, _⟩ => ⟨S32x4096x512, .f32⟩
  | .hbm, ⟨12, _⟩ => ⟨S_, .f32⟩
  | .hbm, ⟨13, _⟩ => ⟨S32, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S32x4096x512, .f32⟩
  | .hbm, ⟨19, _⟩ => ⟨S32x4096x512, .f32⟩
  | .hbm, ⟨20, _⟩ => ⟨S_, .f32⟩
  | .hbm, ⟨21, _⟩ => ⟨S32x1x1, .f32⟩
  | .hbm, ⟨22, _⟩ => ⟨S32x1x1, .f32⟩
  | .hbm, ⟨23, _⟩ => ⟨S32x1x1, .f32⟩
  | .hbm, ⟨24, _⟩ => ⟨S32x4096x512, .f32⟩
  | .hbm, ⟨25, _⟩ => ⟨S32x4096x512, .f32⟩
  | .hbm, ⟨26, _⟩ => ⟨S1x1x512, .f32⟩
  | .hbm, ⟨27, _⟩ => ⟨S32x4096x512, .f32⟩
  | .hbm, ⟨28, _⟩ => ⟨S32x4096x512, .f32⟩
  | .hbm, ⟨29, _⟩ => ⟨S1x1x512, .f32⟩
  | .hbm, ⟨30, _⟩ => ⟨S32x4096x512, .f32⟩
  | .hbm, ⟨31, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S32x4096x512_S32_d1_2 : S32x4096x512.ReducesTo [1, 2] S32
  h_S_ : 0 < S_.numel
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S32x1x1_S32x4096x512_0_1_2 : S32x1x1.BroadcastsInDim S32x4096x512 (![0, 1, 2] : Fin 3 → Fin S32x4096x512.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)

variable [Facts₀]

class Facts : Prop extends Facts₀ where

variable [Facts]
-- ==== Proof.Spec.lean ====
/-
  The set normalisation both programs compute, as functions of the argument arrays over the extended reals.

  For a batch element b the SLAB is the 4096 x 512 array x(b, ., .); write n = 4096 * 512 = 2^21 for its
  number of entries. One side takes the slab's sum s1 and sum of squares s2, the mean mu = s1 * 2^-21, the
  variance s2 * 2^-21 - mu^2, and returns x * scale + shift with scale = w * rsqrt(var + eps) and
  shift = beta - mu * scale. The other side takes mu = s1 / 2^21, the variance as the mean of (x - mu)^2, and
  returns ((x - mu) / sqrt(var + eps)) * w + beta. On finite inputs the two variances are the same real
  (sum (x - mu)^2 = s2 - n mu^2), it is nonnegative and eps is positive, so rsqrt and 1 / sqrt agree, and the
  rest is a ring identity.
-/
import Idealize.ShloMosaic.PureOps.Ideal
import Idealize.ShloMosaic.PureOps.Ideal.Laws
import Idealize.ShloMosaic.Lib.ValueIdx

noncomputable section

namespace Cert.SetNorm

open Idealize.ShloMosaic Idealize.ShloMosaic.ValueIdx

/-- The array of all slabs, [32, 4096, 512], and a feature vector, [512]. -/
abbrev SX : Shape := ⟨3, ![32, 4096, 512]⟩
abbrev SV : Shape := ⟨1, ![512]⟩

/-! ## The three float words -/

/-- The word both sides scale the sums by on one side: 2^-21. -/
def invN : EReal := Ideal.ofBits .f32 0x35000000#32
/-- The word the other side divides the sums by: 2^21. -/
def bigN : EReal := Ideal.ofBits .f32 0x4A000000#32
/-- The stabiliser added to the variance, the same word on both sides. -/
def eps : EReal := Ideal.ofBits .f32 0x3727C5AC#32

theorem invN_eq : invN = ((1 / 2097152 : ℝ) : EReal) := by
  unfold invN; simp [Ideal.ofBits, Ideal.ieee, -EReal.coe_mul]; norm_num

theorem bigN_eq : bigN = ((2097152 : ℝ) : EReal) := by
  unfold bigN; simp [Ideal.ofBits, Ideal.ieee, -EReal.coe_mul]; norm_num

/-- The stabiliser is a positive real (10995116 * 2^-40). -/
theorem eps_eq : ∃ e : ℝ, 0 < e ∧ eps = (e : EReal) := by
  refine ⟨10995116 * (2 : ℝ) ^ (-40 : Int), by positivity, ?_⟩
  unfold eps; simp [Ideal.ofBits, Ideal.ieee, -EReal.coe_mul]

/-- The f32 zero word is the extended real 0. -/
theorem zero_word : Ideal.ofBits .f32 0x00000000#32 = 0 := Ideal.ofBits_zero_f32

/-! ## Sums over a slab -/

/-- The sum of g over slab b. -/
def slab (g : SX.Idx → EReal) (b : Fin 32) : EReal := ∑ r : Fin 4096, ∑ f : Fin 512, g (ix3 b r f)

/-! ## One side: sums scaled by 2^-21, variance as E[x^2] - mu^2, one fused multiply-add -/

def kMean (x : SX.Idx → EReal) (b : Fin 32) : EReal := slab x b * invN
def kVar (x : SX.Idx → EReal) (b : Fin 32) : EReal :=
  slab (fun i => x i * x i) b * invN - kMean x b * kMean x b + eps
def kScale (x : SX.Idx → EReal) (w : SV.Idx → EReal) (b : Fin 32) (f : Fin 512) : EReal :=
  w (ix1 f) * Ideal.rsqrt (kVar x b)
def kShift (x : SX.Idx → EReal) (w β : SV.Idx → EReal) (b : Fin 32) (f : Fin 512) : EReal :=
  β (ix1 f) - kMean x b * kScale x w b f
def kOut (x : SX.Idx → EReal) (w β : SV.Idx → EReal) : SX.Idx → EReal :=
  fun i => x i * kScale x w (i 0) (i 2) + kShift x w β (i 0) (i 2)

/-! ## The other side: sums divided by 2^21, variance as the mean of (x - mu)^2, normalise then scale -/

def rMean (x : SX.Idx → EReal) (b : Fin 32) : EReal := Ideal.div (slab x b) bigN
def rVar (x : SX.Idx → EReal) (b : Fin 32) : EReal :=
  Ideal.div (slab (fun i => (x i - rMean x (i 0)) * (x i - rMean x (i 0))) b) bigN + eps
def rOut (x : SX.Idx → EReal) (w β : SV.Idx → EReal) : SX.Idx → EReal :=
  fun i => Ideal.div (x i - rMean x (i 0)) (Ideal.sqrt (rVar x (i 0))) * w (ix1 (i 2)) + β (ix1 (i 2))

/-! ## One slab by itself: what one grid point sees

A grid point is handed one slab as a [1, 4096, 512] block and the two feature vectors as [1, 512] blocks. -/

abbrev SB : Shape := ⟨3, ![1, 4096, 512]⟩
abbrev SR : Shape := ⟨2, ![1, 512]⟩

/-- The sum of g over the block. -/
def bSum (g : SB.Idx → EReal) : EReal := ∑ r : Fin 4096, ∑ f : Fin 512, g (ix3 0 r f)
def bMean (x0 : SB.Idx → EReal) : EReal := bSum x0 * invN
def bVar (x0 : SB.Idx → EReal) : EReal := bSum (fun i => x0 i * x0 i) * invN - bMean x0 * bMean x0 + eps
def bScale (x0 : SB.Idx → EReal) (x1 : SR.Idx → EReal) (f : Fin 512) : EReal := x1 (ix2 0 f) * Ideal.rsqrt (bVar x0)
def bShift (x0 : SB.Idx → EReal) (x1 x2 : SR.Idx → EReal) (f : Fin 512) : EReal :=
  x2 (ix2 0 f) - bMean x0 * bScale x0 x1 f
def bOut (x0 : SB.Idx → EReal) (x1 x2 : SR.Idx → EReal) : SB.Idx → EReal :=
  fun y => x0 y * bScale x0 x1 (y 2) + bShift x0 x1 x2 (y 2)

/-! ## A sum over a rank-3 index set is the triple sum over its coordinates -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SetNorm

end
-- ==== Proof.Stats.lean ====
/-
  The statistics one grid point computes from its slab.

  The slab [1, 4096, 512] is read as 64 chunks of 64 rows; two [64, 512] accumulators add up the chunks and their
  squares, entry by entry; each accumulator is then summed over all its 64 x 512 entries. Entry (a, f) of the first
  accumulator is the sum over k < 64 of x(0, 64 k + a, f), so its total is the sum of the whole slab: every row
  r < 4096 is 64 k + a for exactly one (k, a). Likewise for the squares. The mean is the first total times 2^-21,
  and the variance plus the stabiliser is the second total times 2^-21, minus the mean squared, plus eps.
-/
import proofs.«153717_g83167746719796_feedfinal_518_8_alg».proof.Proof.Spec
import proofs.«153717_g83167746719796_feedfinal_518_8_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Block

open Cert.KernelIdeal Cert.KernelIdeal.Gen Idealize.ShloMosaic Idealize.ShloMosaic.TcCoe Idealize.ShloMosaic.ValueIdx Idealize.SL.Sem Cert.SetNorm

/-- Rows off .. off + 63 of the slab as a [64, 512] array (0 past the slab's end, which no chunk reaches). -/
def rowsAt (x0 : SB.Idx → EReal) (off : ℕ) : (⟨2, ![64, 512]⟩ : Shape).Idx → EReal :=
  fun j => if h : off + (j 0).val < 4096 then x0 (ix3 0 ⟨off + (j 0).val, h⟩ (j 1)) else 0

/-- A chunk load, its unit axis dropped, is those rows. -/
theorem cast_ld (x0 : Vec Ideal S1x4096x512 .f32) (off : ℕ)
    (inb : ∀ a, (![0, off, 0] : Fin 3 → ℕ) a + S1x64x512.size a ≤ S1x4096x512.size a) (h : S1x64x512.ShapeCasts S64x512) :
    shapeCast S64x512 (View.ld x0 (Rect.unit (s := S1x4096x512) ![0, off, 0] S1x64x512.size inb)) h = rowsAt x0 off := by
  funext j
  have hoff : off + 64 ≤ 4096 := inb 1
  have hj : (j 0).val < 64 := (j 0).isLt
  refine (shapeCast_dropUnit_apply ![64, 512] _ h j).trans ?_
  unfold rowsAt
  rw [dif_pos (by omega)]
  show x0 _ = x0 _
  congr 1
  funext a
  apply Fin.ext
  match a with
  | ⟨0, _⟩ => show 0 + 1 * 0 = 0; rfl
  | ⟨1, _⟩ => show off + 1 * (j 0).val = off + (j 0).val; omega
  | ⟨2, _⟩ => show 0 + 1 * (j 1).val = (j 1).val; omega

/-- The same with the chunk's extents written out. -/
theorem cast_ld_lit (x0 : Vec Ideal S1x4096x512 .f32) (off : ℕ)
    (inb : ∀ a, (![0, off, 0] : Fin 3 → ℕ) a + (![1, 64, 512] : Fin 3 → ℕ) a ≤ S1x4096x512.size a) (h : S1x64x512.ShapeCasts S64x512) :
    shapeCast S64x512 (View.ld x0 (Rect.unit (s := S1x4096x512) ![0, off, 0] ![1, 64, 512] inb)) h = rowsAt x0 off :=
  cast_ld x0 off inb h

/-- The total of a [64, 512] accumulator, as the kernel takes it (a unit axis added, both long axes reduced, the
    one entry extracted), is the double sum of its entries. -/
theorem total_acc (acc : FVec Ideal S64x512 .f32) (h1 : S64x512.ShapeCasts S1x64x512) (hr : S1x64x512.Reduces [1, 2] S1)
    (hf : FKind.Formats .f32) (hacc : (0x00000000#32 : BitVec 32) = FKind.add.neutral .f32 hf)
    (h2 : S1.ShapeCasts S1x1x1) (hp : ∀ a, (![0, 0, 0] : Fin 3 → ℕ) a < S1x1x1.size a) :
    extractAt ![0, 0, 0] (shapeCast S1x1x1 (multiReduction .add [1, 2] S1 (shapeCast S1x64x512 acc h1) 0x00000000#32 hr hf hacc) h2) hp
      = ∑ a : Fin 64, ∑ f : Fin 512, acc (ix2 a f) := by
  unfold extractAt
  rw [shapeCast_apply _ h2 _ (ix1 0) (by rfl)]
  rw [Ideal.multiReduction_add_total _ _ hr (by decide) hf hacc]
  rw [sum_idx3, Fin.sum_univ_one]
  refine Finset.sum_congr rfl fun a _ => Finset.sum_congr rfl fun f _ => ?_
  refine (shapeCast_addUnit_apply ![64, 512] acc h1 (ix3 0 a f)).trans (congrArg acc ?_)
  funext d
  match d with
  | ⟨0, _⟩ => rfl
  | ⟨1, _⟩ => rfl

/-! ## Every row is in exactly one chunk -/

/-- A sum over 64 n consecutive naturals is the sum over n chunks of 64. -/
theorem sum_range_chunks {M : Type*} [AddCommMonoid M] (G : ℕ → M) (n : ℕ) :
    ∑ r ∈ Finset.range (64 * n), G r = ∑ k ∈ Finset.range n, ∑ a ∈ Finset.range 64, G (64 * k + a) := by
  induction n with
  | zero => simp
  | succ n ih =>
    rw [Nat.mul_succ, Finset.sum_range_add, ih,
      Finset.sum_range_succ (fun k => ∑ a ∈ Finset.range 64, G (64 * k + a)) n]

/-- The total over a and f of the 64 chunks' entries is the sum of the whole slab. -/
theorem sum_rows (x0 : SB.Idx → EReal) :
    ∑ a : Fin 64, ∑ f : Fin 512, ∑ k ∈ Finset.range 64, rowsAt x0 (64 * k) (ix2 a f) = bSum x0 := by
  unfold bSum
  -- a row's sum over the features, as one total function of the row's number
  let G : ℕ → EReal := fun r => if h : r < 4096 then ∑ f : Fin 512, x0 (ix3 0 ⟨r, h⟩ f) else 0
  have hA : ∀ (a : Fin 64) (k : ℕ), ∑ f : Fin 512, rowsAt x0 (64 * k) (ix2 a f) = G (64 * k + a.val) := by
    intro a k
    show _ = if h : 64 * k + a.val < 4096 then _ else _
    unfold rowsAt
    by_cases h : 64 * k + a.val < 4096
    · rw [dif_pos h]; exact Finset.sum_congr rfl fun f _ => dif_pos h
    · rw [dif_neg h]; exact Finset.sum_eq_zero fun f _ => dif_neg h
  have hR : ∑ r : Fin 4096, ∑ f : Fin 512, x0 (ix3 0 r f) = ∑ r ∈ Finset.range (64 * 64), G r := by
    rw [show 64 * 64 = 4096 from rfl, ← Fin.sum_univ_eq_sum_range G 4096]
    refine Finset.sum_congr rfl fun r _ => ?_
    show _ = if h : r.val < 4096 then ∑ f : Fin 512, x0 (ix3 0 ⟨r.val, h⟩ f) else 0
    rw [dif_pos r.isLt]
  rw [hR, sum_range_chunks G 64]
  calc ∑ a : Fin 64, ∑ f : Fin 512, ∑ k ∈ Finset.range 64, rowsAt x0 (64 * k) (ix2 a f)
      = ∑ a : Fin 64, ∑ k ∈ Finset.range 64, G (64 * k + a.val) := by
        refine Finset.sum_congr rfl fun a _ => ?_
        rw [Finset.sum_comm]
        exact Finset.sum_congr rfl fun k _ => hA a k
    _ = ∑ k ∈ Finset.range 64, ∑ a : Fin 64, G (64 * k + a.val) := Finset.sum_comm
    _ = ∑ k ∈ Finset.range 64, ∑ a ∈ Finset.range 64, G (64 * k + a) :=
        Finset.sum_congr rfl fun k _ => Fin.sum_univ_eq_sum_range (fun a => G (64 * k + a)) 64

/-- A chunk's entry squared is the entry of the slab of squares. -/
theorem rowsAt_sq (x0 : SB.Idx → EReal) (off : ℕ) (j : (⟨2, ![64, 512]⟩ : Shape).Idx) :
    rowsAt x0 off j * rowsAt x0 off j = rowsAt (fun i => x0 i * x0 i) off j := by
  unfold rowsAt
  by_cases h : off + (j 0).val < 4096
  · rw [dif_pos h, dif_pos h]
  · rw [dif_neg h, dif_neg h, mul_zero]

/-! ## The two statistics, as the kernel's own terms -/

/-- The f32 zero word, as a scalar, is 0. -/
theorem scalar_zero : (Scalar.ofBits .f32 0x00000000#32 : Ideal .f32) = 0 := Ideal.ofBits_zero_f32

/-- The mean's term — the first accumulator over all 64 chunk loads, totalled, times 2^-21 — is the slab's mean. -/
theorem mean_term (x0 : Vec Ideal S1x4096x512 .f32) :
    k0_pay87 (k0_pay80 (k0_pay71 (k0_pay60 (k0_pay51 (k0_pay40 (k0_pay31 (k0_pay20 (k0_pay11 (View.ld x0 r0_0) (View.ld x0 r0_1) (View.ld x0 r0_2) (View.ld x0 r0_3) (View.ld x0 r0_4) (View.ld x0 r0_5) (View.ld x0 r0_6)) (View.ld x0 r0_7) (View.ld x0 r0_8) (View.ld x0 r0_9) (View.ld x0 r0_10) (View.ld x0 r0_11) (View.ld x0 r0_12) (View.ld x0 r0_13)) (View.ld x0 r0_14) (View.ld x0 r0_15) (View.ld x0 r0_16) (View.ld x0 r0_17) (View.ld x0 r0_18) (View.ld x0 r0_19) (View.ld x0 r0_20) (View.ld x0 r0_21)) (View.ld x0 r0_22) (View.ld x0 r0_23) (View.ld x0 r0_24) (View.ld x0 r0_25) (View.ld x0 r0_26) (View.ld x0 r0_27) (View.ld x0 r0_28)) (View.ld x0 r0_29) (View.ld x0 r0_30) (View.ld x0 r0_31) (View.ld x0 r0_32) (View.ld x0 r0_33) (View.ld x0 r0_34) (View.ld x0 r0_35) (View.ld x0 r0_36)) (View.ld x0 r0_37) (View.ld x0 r0_38) (View.ld x0 r0_39) (View.ld x0 r0_40) (View.ld x0 r0_41) (View.ld x0 r0_42) (View.ld x0 r0_43)) (View.ld x0 r0_44) (View.ld x0 r0_45) (View.ld x0 r0_46) (View.ld x0 r0_47) (View.ld x0 r0_48) (View.ld x0 r0_49) (View.ld x0 r0_50) (View.ld x0 r0_51)) (View.ld x0 r0_52) (View.ld x0 r0_53) (View.ld x0 r0_54) (View.ld x0 r0_55) (View.ld x0 r0_56) (View.ld x0 r0_57) (View.ld x0 r0_58)) (View.ld x0 r0_59) (View.ld x0 r0_60) (View.ld x0 r0_61) (View.ld x0 r0_62) (View.ld x0 r0_63) = fun _ => bMean x0 := by
  funext i
  unfold k0_pay87
  rw [mulf_apply, broadcast_apply, broadcast_apply]
  refine (congrArg (· * _) (total_acc _ _ _ _ _ _ _)).trans ?_
  unfold bMean invN
  rw [← sum_rows x0]
  refine congrArg (· * _) ?_
  refine Finset.sum_congr rfl fun a _ => Finset.sum_congr rfl fun f _ => ?_
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, addf_apply, broadcast_apply, scalar_zero,
    Finset.sum_range_succ, Finset.sum_range_zero, Nat.reduceMul]
  -- both sides are 0 plus 64 summands, in the same order: summand by summand, a chunk load is its rows
  repeat (refine congrArg₂ (· + ·) ?_ (congrFun (cast_ld x0 _ _ _) _))
  rfl

/-- The variance's term — the second accumulator (the chunks' squares) totalled, times 2^-21, minus the mean squared,
    plus the stabiliser — is the slab's variance plus eps. -/
theorem var_term (x0 : Vec Ideal S1x4096x512 .f32) :
    k0_pay88 (k0_pay80 (k0_pay71 (k0_pay60 (k0_pay51 (k0_pay40 (k0_pay31 (k0_pay20 (k0_pay11 (View.ld x0 r0_0) (View.ld x0 r0_1) (View.ld x0 r0_2) (View.ld x0 r0_3) (View.ld x0 r0_4) (View.ld x0 r0_5) (View.ld x0 r0_6)) (View.ld x0 r0_7) (View.ld x0 r0_8) (View.ld x0 r0_9) (View.ld x0 r0_10) (View.ld x0 r0_11) (View.ld x0 r0_12) (View.ld x0 r0_13)) (View.ld x0 r0_14) (View.ld x0 r0_15) (View.ld x0 r0_16) (View.ld x0 r0_17) (View.ld x0 r0_18) (View.ld x0 r0_19) (View.ld x0 r0_20) (View.ld x0 r0_21)) (View.ld x0 r0_22) (View.ld x0 r0_23) (View.ld x0 r0_24) (View.ld x0 r0_25) (View.ld x0 r0_26) (View.ld x0 r0_27) (View.ld x0 r0_28)) (View.ld x0 r0_29) (View.ld x0 r0_30) (View.ld x0 r0_31) (View.ld x0 r0_32) (View.ld x0 r0_33) (View.ld x0 r0_34) (View.ld x0 r0_35) (View.ld x0 r0_36)) (View.ld x0 r0_37) (View.ld x0 r0_38) (View.ld x0 r0_39) (View.ld x0 r0_40) (View.ld x0 r0_41) (View.ld x0 r0_42) (View.ld x0 r0_43)) (View.ld x0 r0_44) (View.ld x0 r0_45) (View.ld x0 r0_46) (View.ld x0 r0_47) (View.ld x0 r0_48) (View.ld x0 r0_49) (View.ld x0 r0_50) (View.ld x0 r0_51)) (View.ld x0 r0_52) (View.ld x0 r0_53) (View.ld x0 r0_54) (View.ld x0 r0_55) (View.ld x0 r0_56) (View.ld x0 r0_57) (View.ld x0 r0_58)) (k0_pay81 (k0_pay69 (k0_pay61 (k0_pay49 (k0_pay41 (k0_pay29 (k0_pay21 (k0_pay9 (View.ld x0 r0_0) (View.ld x0 r0_1) (View.ld x0 r0_2) (View.ld x0 r0_3) (View.ld x0 r0_4) (View.ld x0 r0_5)) (k0_pay12 (View.ld x0 r0_6)) (View.ld x0 r0_7) (View.ld x0 r0_8) (View.ld x0 r0_9) (View.ld x0 r0_10) (View.ld x0 r0_11) (View.ld x0 r0_12) (View.ld x0 r0_13)) (View.ld x0 r0_14) (View.ld x0 r0_15) (View.ld x0 r0_16) (View.ld x0 r0_17) (View.ld x0 r0_18) (View.ld x0 r0_19) (View.ld x0 r0_20)) (k0_pay32 (View.ld x0 r0_21)) (View.ld x0 r0_22) (View.ld x0 r0_23) (View.ld x0 r0_24) (View.ld x0 r0_25) (View.ld x0 r0_26) (View.ld x0 r0_27) (View.ld x0 r0_28)) (View.ld x0 r0_29) (View.ld x0 r0_30) (View.ld x0 r0_31) (View.ld x0 r0_32) (View.ld x0 r0_33) (View.ld x0 r0_34) (View.ld x0 r0_35)) (k0_pay52 (View.ld x0 r0_36)) (View.ld x0 r0_37) (View.ld x0 r0_38) (View.ld x0 r0_39) (View.ld x0 r0_40) (View.ld x0 r0_41) (View.ld x0 r0_42) (View.ld x0 r0_43)) (View.ld x0 r0_44) (View.ld x0 r0_45) (View.ld x0 r0_46) (View.ld x0 r0_47) (View.ld x0 r0_48) (View.ld x0 r0_49) (View.ld x0 r0_50)) (k0_pay72 (View.ld x0 r0_51)) (View.ld x0 r0_52) (View.ld x0 r0_53) (View.ld x0 r0_54) (View.ld x0 r0_55) (View.ld x0 r0_56) (View.ld x0 r0_57) (View.ld x0 r0_58)) (View.ld x0 r0_59) (View.ld x0 r0_60) (View.ld x0 r0_61) (View.ld x0 r0_62) (View.ld x0 r0_63) = fun _ => bVar x0 := by
  funext i
  unfold k0_pay88
  rw [mean_term x0]
  rw [addf_apply, subf_apply, mulf_apply, mulf_apply, broadcast_apply, broadcast_apply, broadcast_apply]
  refine (congrArg (fun t => t * _ - _ + _) (total_acc _ _ _ _ _ _ _)).trans ?_
  unfold bVar eps invN
  rw [← sum_rows (fun i => x0 i * x0 i)]
  refine congrArg (fun t => t * _ - _ + _) ?_
  refine Finset.sum_congr rfl fun a _ => Finset.sum_congr rfl fun f _ => ?_
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, addf_apply, mulf_apply, broadcast_apply, scalar_zero,
    Finset.sum_range_succ, Finset.sum_range_zero, Nat.reduceMul]
  -- summand by summand, a chunk load squared is the rows of the slab of squares
  repeat (refine congrArg₂ (· + ·) ?_ ((congrArg₂ (· * ·) (congrFun (cast_ld x0 _ _ _) _)
    (congrFun (cast_ld x0 _ _ _) _)).trans (rowsAt_sq x0 _ _)))
  rfl

end Cert.KernelIdeal.Block

end
-- ==== Proof.OutPieces.lean ====
import proofs.«153717_g83167746719796_feedfinal_518_8_alg».proof.Proof.Spec
import proofs.«153717_g83167746719796_feedfinal_518_8_alg».proof.Proof.Gen.KernelIdeal.Frame
import Idealize.ShloMosaic.Lib.ValueIdx
import Idealize.ShloMosaic.Lib.Pipeline.Value
noncomputable section
namespace Cert.KernelIdeal.Block
open Cert.KernelIdeal Cert.KernelIdeal.Gen Idealize.ShloMosaic Idealize.ShloMosaic.TcCoe Idealize.ShloMosaic.ValueIdx Idealize.SL.Sem Cert.SetNorm

/-! ## The two feature rows at an index -/

/-- The scale row: the weight times the reciprocal square root of the (one) variance word. -/
theorem scale_apply (v : FVec Ideal S1x1 .f32) (w : Vec Ideal S1x512 .f32) (q : Fin 512) :
    k0_pay89 v w (ix2 0 q) = w (ix2 0 q) * Ideal.rsqrt (v (ix2 0 0)) := by
  unfold k0_pay89
  rw [mulf_apply, shapeCast_self]
  rw [broadcastTo_apply (rsqrt v) broadcasts_S1x1_S1x512 (ix2 0 q) (ix2 0 0)
    (fun a => match a with | ⟨0, _⟩ => rfl | ⟨1, _⟩ => rfl)]
  rfl

/-- The shift row: the bias less the mean times the scale row. -/
theorem shift_apply (μ v : FVec Ideal S1x1 .f32) (w b : Vec Ideal S1x512 .f32) (q : Fin 512) :
    k0_pay90 μ v w b (ix2 0 q) = b (ix2 0 q) - μ (ix2 0 0) * (w (ix2 0 q) * Ideal.rsqrt (v (ix2 0 0))) := by
  unfold k0_pay90
  rw [subf_apply, mulf_apply, shapeCast_self, scale_apply]
  rw [broadcastTo_apply μ broadcasts_S1x1_S1x512 (ix2 0 q) (ix2 0 0)
    (fun a => match a with | ⟨0, _⟩ => rfl | ⟨1, _⟩ => rfl)]

/-! ## One tile of 512 rows: rows times the scale row plus the shift row -/

/-- A [1, 512, 512] tile viewed [512, 512] reads (0, p, q) at (p, q). -/
theorem dropUnit_apply (xs : Vec Ideal S1x512x512 .f32) (p q : Fin 512) :
    (shapeCast S512x512 xs shapeCasts_S1x512x512_S512x512 : FVec Ideal S512x512 .f32) (ix2 p q) = xs (ix3 0 p q) := by
  refine (shapeCast_dropUnit_apply ![512, 512] xs shapeCasts_S1x512x512_S512x512 (ix2 p q)).trans ?_
  exact congrArg xs (funext fun a => match a with | ⟨0, _⟩ => rfl | ⟨1, _⟩ => rfl | ⟨2, _⟩ => rfl)

/-- A [512, 512] value stored as a [1, 512, 512] tile reads (p, q) at (0, p, q). -/
theorem addUnit_apply (z : FVec Ideal S512x512 .f32) (p q : Fin 512) :
    (shapeCast S1x512x512 z shapeCasts_S512x512_S1x512x512 : FVec Ideal S1x512x512 .f32) (ix3 0 p q) = z (ix2 p q) := by
  refine (shapeCast_addUnit_apply ![512, 512] z shapeCasts_S512x512_S1x512x512 (ix3 0 p q)).trans ?_
  exact congrArg z (funext fun a => match a with | ⟨0, _⟩ => rfl | ⟨1, _⟩ => rfl)

/-- A [1, 512] row broadcast over 512 rows reads its column. -/
theorem bcastRow_apply (r : FVec Ideal S1x512 .f32) (p q : Fin 512) :
    (broadcastTo S512x512 r broadcasts_S1x512_S512x512 : FVec Ideal S512x512 .f32) (ix2 p q) = r (ix2 0 q) :=
  broadcastTo_apply r broadcasts_S1x512_S512x512 (ix2 p q) (ix2 0 q)
    (fun a => match a with | ⟨0, _⟩ => rfl | ⟨1, _⟩ => rfl)

/-- The tile's value as a [512, 512] array: rows times the scale row plus the shift row. -/
theorem fma2_apply (xs : Vec Ideal S1x512x512 .f32) (sc sh : FVec Ideal S1x512 .f32) (p q : Fin 512) :
    addf (mulf (shapeCast S512x512 xs shapeCasts_S1x512x512_S512x512 : FVec Ideal S512x512 .f32)
        (broadcastTo S512x512 sc broadcasts_S1x512_S512x512))
      (broadcastTo S512x512 sh broadcasts_S1x512_S512x512) (ix2 p q)
      = xs (ix3 0 p q) * sc (ix2 0 q) + sh (ix2 0 q) := by
  rw [addf_apply, mulf_apply, dropUnit_apply, bcastRow_apply, bcastRow_apply]

/-- The same stored back as a [1, 512, 512] tile. -/
theorem fma3_apply (xs : Vec Ideal S1x512x512 .f32) (sc sh : FVec Ideal S1x512 .f32) (p q : Fin 512) :
    (shapeCast S1x512x512 (addf (mulf (shapeCast S512x512 xs shapeCasts_S1x512x512_S512x512 : FVec Ideal S512x512 .f32)
        (broadcastTo S512x512 sc broadcasts_S1x512_S512x512))
      (broadcastTo S512x512 sh broadcasts_S1x512_S512x512)) shapeCasts_S512x512_S1x512x512 : FVec Ideal S1x512x512 .f32) (ix3 0 p q)
      = xs (ix3 0 p q) * sc (ix2 0 q) + sh (ix2 0 q) := by
  rw [addUnit_apply, fma2_apply]

/-! ## The eight payloads at an index -/

theorem pay2_apply (sc sh : FVec Ideal S1x512 .f32) (xs : Vec Ideal S1x512x512 .f32) (p q : Fin 512) :
    k0_pay2 sc sh xs (ix3 0 p q) = xs (ix3 0 p q) * sc (ix2 0 q) + sh (ix2 0 q) := by
  unfold k0_pay2; exact fma3_apply xs sc sh p q

theorem pay95_apply (sc sh : FVec Ideal S1x512 .f32) (xs : Vec Ideal S1x512x512 .f32) (p q : Fin 512) :
    k0_pay95 sc sh xs (ix3 0 p q) = xs (ix3 0 p q) * sc (ix2 0 q) + sh (ix2 0 q) := by
  unfold k0_pay95; exact fma3_apply xs sc sh p q

theorem pay96_apply (sc sh : FVec Ideal S1x512 .f32) (xs : Vec Ideal S1x512x512 .f32) (p q : Fin 512) :
    k0_pay96 sc sh xs (ix3 0 p q) = xs (ix3 0 p q) * sc (ix2 0 q) + sh (ix2 0 q) := by
  unfold k0_pay96; exact fma3_apply xs sc sh p q

theorem pay97_apply (sc sh : FVec Ideal S1x512 .f32) (xs : Vec Ideal S1x512x512 .f32) (p q : Fin 512) :
    k0_pay97 sc sh xs (ix3 0 p q) = xs (ix3 0 p q) * sc (ix2 0 q) + sh (ix2 0 q) := by
  unfold k0_pay97; exact fma3_apply xs sc sh p q

theorem pay1_98_apply (sc sh : FVec Ideal S1x512 .f32) (xs : Vec Ideal S1x512x512 .f32) (p q : Fin 512) :
    k0_pay1 (k0_pay98 sc sh xs) (ix3 0 p q) = xs (ix3 0 p q) * sc (ix2 0 q) + sh (ix2 0 q) := by
  unfold k0_pay1 k0_pay98; exact fma3_apply xs sc sh p q

theorem pay94_93_apply (μ v : FVec Ideal S1x1 .f32) (w b : Vec Ideal S1x512 .f32) (xs : Vec Ideal S1x512x512 .f32) (p q : Fin 512) :
    k0_pay94 (k0_pay93 μ v w b xs) (ix3 0 p q)
      = xs (ix3 0 p q) * k0_pay89 v w (ix2 0 q) + k0_pay90 μ v w b (ix2 0 q) := by
  unfold k0_pay94 k0_pay93; exact fma3_apply xs _ _ p q

theorem pay92_apply (μ v : FVec Ideal S1x1 .f32) (w b : Vec Ideal S1x512 .f32) (xs : Vec Ideal S1x512x512 .f32) (p q : Fin 512) :
    k0_pay92 μ v w b xs (ix3 0 p q)
      = xs (ix3 0 p q) * k0_pay89 v w (ix2 0 q) + k0_pay90 μ v w b (ix2 0 q) := by
  unfold k0_pay92; exact fma3_apply xs _ _ p q

theorem pay91_apply (μ v : FVec Ideal S1x1 .f32) (w b : Vec Ideal S1x512 .f32) (xs : Vec Ideal S1x512x512 .f32) (p q : Fin 512) :
    k0_pay91 μ v w b xs (ix3 0 p q)
      = xs (ix3 0 p q) * k0_pay89 v w (ix2 0 q) + k0_pay90 μ v w b (ix2 0 q) := by
  unfold k0_pay91; exact fma3_apply xs _ _ p q

/-! ## A tile's payload under its rectangle -/

/-- A payload that is rows times a scale row plus a shift row, over the 512 rows loaded at row offset `k`, is at each
    tile index the one function `y ↦ x0 y * sc (0, y 2) + sh (0, y 2)` of the block index under it. -/
theorem tile_apply (x0 : Vec Ideal S1x4096x512 .f32) (sc sh : FVec Ideal S1x512 .f32) (k : Nat)
    (inb : ∀ a, (![0, k, 0] : Fin 3 → Nat) a + S1x512x512.size a ≤ S1x4096x512.size a)
    (P : Vec Ideal S1x512x512 .f32 → FVec Ideal S1x512x512 .f32)
    (hP : ∀ (xs : Vec Ideal S1x512x512 .f32) (p q : Fin 512), P xs (ix3 0 p q) = xs (ix3 0 p q) * sc (ix2 0 q) + sh (ix2 0 q))
    (x : S1x512x512.Idx) :
    P (View.ld x0 (Rect.unit (s := S1x4096x512) ![0, k, 0] S1x512x512.size inb)) x
      = (fun y : S1x4096x512.Idx => x0 y * sc (ix2 0 (y 2)) + sh (ix2 0 (y 2)))
          ((Rect.unit (s := S1x4096x512) ![0, k, 0] S1x512x512.size inb).emb x) := by
  obtain ⟨p, q, rfl⟩ : ∃ p q : Fin 512, x = ix3 0 p q :=
    ⟨x 1, x 2, funext fun a => match a with
      | ⟨0, _⟩ => Subsingleton.elim (α := Fin 1) _ _ | ⟨1, _⟩ => rfl | ⟨2, _⟩ => rfl⟩
  refine (hP _ p q).trans ?_
  have e : ((Rect.unit (s := S1x4096x512) ![0, k, 0] S1x512x512.size inb).emb (ix3 0 p q)) 2 = q :=
    Fin.ext (by show 0 + 1 * q.val = q.val; omega)
  show _ = x0 _ * sc (ix2 0 _) + sh (ix2 0 _)
  rw [e]
  rfl

/-! ## The block after the eight stores -/

theorem canon_pieces (x0 : Vec Ideal S1x4096x512 .f32) (x1 x2 : Vec Ideal S1x512 .f32) (μ v : FVec Ideal S1x1 .f32) (y : S1x4096x512.Idx) :
    View.canon ([⟨r0_72, k0_pay2 (k0_pay89 v (View.ld x1 r0_64)) (k0_pay90 μ v (View.ld x1 r0_64) (View.ld x2 r0_64)) (View.ld x0 r0_72)⟩,
      ⟨r0_71, k0_pay1 (k0_pay98 (k0_pay89 v (View.ld x1 r0_64)) (k0_pay90 μ v (View.ld x1 r0_64) (View.ld x2 r0_64)) (View.ld x0 r0_71))⟩,
      ⟨r0_70, k0_pay97 (k0_pay89 v (View.ld x1 r0_64)) (k0_pay90 μ v (View.ld x1 r0_64) (View.ld x2 r0_64)) (View.ld x0 r0_70)⟩,
      ⟨r0_69, k0_pay96 (k0_pay89 v (View.ld x1 r0_64)) (k0_pay90 μ v (View.ld x1 r0_64) (View.ld x2 r0_64)) (View.ld x0 r0_69)⟩,
      ⟨r0_68, k0_pay95 (k0_pay89 v (View.ld x1 r0_64)) (k0_pay90 μ v (View.ld x1 r0_64) (View.ld x2 r0_64)) (View.ld x0 r0_68)⟩,
      ⟨r0_67, k0_pay94 (k0_pay93 μ v (View.ld x1 r0_64) (View.ld x2 r0_64) (View.ld x0 r0_67))⟩,
      ⟨r0_66, k0_pay92 μ v (View.ld x1 r0_64) (View.ld x2 r0_64) (View.ld x0 r0_66)⟩,
      ⟨r0_65, k0_pay91 μ v (View.ld x1 r0_64) (View.ld x2 r0_64) (View.ld x0 r0_65)⟩] : List (View.Piece (Elt Ideal) S1x4096x512 .f32)) y
      = x0 y * (x1 (ix2 0 (y 2)) * Ideal.rsqrt (v (ix2 0 0))) + (x2 (ix2 0 (y 2)) - μ (ix2 0 0) * (x1 (ix2 0 (y 2)) * Ideal.rsqrt (v (ix2 0 0)))) := by
  have e1 : View.ld x1 r0_64 = x1 :=
    View.ld_unit_zero (funext fun a => match a with | ⟨0, _⟩ => rfl | ⟨1, _⟩ => rfl) _ x1
  have e2 : View.ld x2 r0_64 = x2 :=
    View.ld_unit_zero (funext fun a => match a with | ⟨0, _⟩ => rfl | ⟨1, _⟩ => rfl) _ x2
  rw [e1, e2]
  refine (View.canon_apply_of_pieces
    (fun y : S1x4096x512.Idx => x0 y * k0_pay89 v x1 (ix2 0 (y 2)) + k0_pay90 μ v x1 x2 (ix2 0 (y 2))) _ ?_ y
    (cover0_3 _ _ _ _ _ _ _ _ y)).trans ?_
  · intro pc hpc x
    rcases List.mem_cons.mp hpc with rfl | hpc
    · exact tile_apply x0 _ _ 3584 _ (k0_pay2 _ _) (pay2_apply _ _) x
    rcases List.mem_cons.mp hpc with rfl | hpc
    · exact tile_apply x0 _ _ 3072 _ (fun xs => k0_pay1 (k0_pay98 _ _ xs)) (pay1_98_apply _ _) x
    rcases List.mem_cons.mp hpc with rfl | hpc
    · exact tile_apply x0 _ _ 2560 _ (k0_pay97 _ _) (pay97_apply _ _) x
    rcases List.mem_cons.mp hpc with rfl | hpc
    · exact tile_apply x0 _ _ 2048 _ (k0_pay96 _ _) (pay96_apply _ _) x
    rcases List.mem_cons.mp hpc with rfl | hpc
    · exact tile_apply x0 _ _ 1536 _ (k0_pay95 _ _) (pay95_apply _ _) x
    rcases List.mem_cons.mp hpc with rfl | hpc
    · exact tile_apply x0 _ _ 1024 _ (fun xs => k0_pay94 (k0_pay93 μ v x1 x2 xs)) (pay94_93_apply μ v x1 x2) x
    rcases List.mem_cons.mp hpc with rfl | hpc
    · exact tile_apply x0 _ _ 512 _ (k0_pay92 μ v x1 x2) (pay92_apply μ v x1 x2) x
    rcases List.mem_cons.mp hpc with rfl | hpc
    · exact tile_apply x0 _ _ 0 _ (k0_pay91 μ v x1 x2) (pay91_apply μ v x1 x2) x
    nomatch hpc
  · exact congrArg₂ (fun a b : EReal => x0 y * a + b) (scale_apply v x1 (y 2)) (shift_apply μ v x1 x2 (y 2))

end Cert.KernelIdeal.Block

end
-- ==== Proof.KernelBlock.lean ====
/-
  What one grid point leaves in its output block.

  The block is stored as eight pieces of 512 rows. Every piece's value is x * scale + shift with scale and shift
  computed from two statistics of the point's slab; those statistics are the slab's mean and its variance plus the
  stabiliser, and with them every piece is the same function of the block index. So the whole block is that function.
-/
import proofs.«153717_g83167746719796_feedfinal_518_8_alg».proof.Proof.Stats
import proofs.«153717_g83167746719796_feedfinal_518_8_alg».proof.Proof.OutPieces

set_option maxRecDepth 16384

noncomputable section

namespace Cert.KernelIdeal.Block

open Cert.KernelIdeal Cert.KernelIdeal.Gen Idealize.ShloMosaic Idealize.ShloMosaic.TcCoe Idealize.ShloMosaic.ValueIdx Idealize.SL.Sem Cert.SetNorm

/-- The output block of a grid point is x * scale + shift of its slab and the two feature vectors. -/
theorem out_block (x0 : Vec Ideal S1x4096x512 .f32) (x1 x2 : Vec Ideal S1x512 .f32) :
    out0_3 (F := Ideal) x0 x1 x2 = bOut x0 x1 x2 := by
  funext y
  unfold out0_3
  rw [var_term x0, mean_term x0]
  exact canon_pieces x0 x1 x2 (fun _ => bMean x0) (fun _ => bVar x0) y

end Cert.KernelIdeal.Block

end
-- ==== Proof.KernelValue.lean ====
/-
  From one slab to the whole array.

  The 32 grid points tile the [32, 4096, 512] array by slabs: point t is handed slab t as its [1, 4096, 512] block and
  the two feature vectors, staged as [1, 512] rows, whole. What a point writes back is the set normalisation of its own
  slab, so the array after the run is the set normalisation of every slab, index by index.
-/
import proofs.«153717_g83167746719796_feedfinal_518_8_alg».proof.Proof.KernelBlock
import proofs.«153717_g83167746719796_feedfinal_518_8_alg».proof.Proof.Gen.KernelIdeal.Value
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Cert.KernelIdeal.Value Cert.KernelIdeal.Block Idealize.ShloMosaic Idealize.ShloMosaic.TcCoe Idealize.ShloMosaic.ValueIdx Idealize.SL.Sem Cert.SetNorm
open Idealize.ShloMosaic.Pipeline (Dat)

variable (m : (ℓ : Loc nD τ sig) → Buf (Elt Ideal) ℓ) (ρ : Dev nD → PrngReg)

/-! ## Where each point's blocks sit -/

/-- The index maps over the 32 points: the slab windows sit at block (t, 0, 0), the two row windows at (0, 0). -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a slab number. -/
abbrev slabOf (t : Fin cfg0.N) : Fin 32 := Fin.cast N_0 t

/-- Coordinate (0, r, f) of point t's input slab block is array index (t, r, f). -/
theorem emb_in (t : Fin cfg0.N) (y : S1x4096x512.Idx) :
    ((cfg0.win 0).blk t).view.emb y = ix3 (slabOf t) (y 1) (y 2) := by
  obtain ⟨e0, e1, e2, -⟩ := block_index t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 4096 + 1 * (y 1).val = (y 1).val; omega
  | ⟨2, _⟩ => show win0_0.index t (2 : Fin 3) * 512 + 1 * (y 2).val = (y 2).val; omega

/-- The same for the output slab block. -/
theorem emb_out (t : Fin cfg0.N) (y : S1x4096x512.Idx) :
    ((cfg0.win 3).blk t).view.emb y = ix3 (slabOf t) (y 1) (y 2) := by
  obtain ⟨-, -, -, -, -, -, -, e0, e1, e2⟩ := block_index t
  funext a; apply Fin.ext
  match a with
  | ⟨0, _⟩ => show win0_3.index t (0 : Fin 3) * 1 + 1 * (y 0).val = t.val; have hy : (y 0).val < 1 := (y 0).isLt; omega
  | ⟨1, _⟩ => show win0_3.index t (1 : Fin 3) * 4096 + 1 * (y 1).val = (y 1).val; omega
  | ⟨2, _⟩ => show win0_3.index t (2 : Fin 3) * 512 + 1 * (y 2).val = (y 2).val; omega

/-- The two row blocks are the staged rows themselves. -/
theorem emb_row1 (t : Fin cfg0.N) (y : S1x512.Idx) : ((cfg0.win 1).blk t).view.emb y = y := by
  obtain ⟨-, -, -, e0, e1, -⟩ := block_index t
  funext a; apply Fin.ext
  match a with
  | ⟨0, _⟩ => show win0_1.index t (0 : Fin 2) * 1 + 1 * (y 0).val = (y 0).val; omega
  | ⟨1, _⟩ => show win0_1.index t (1 : Fin 2) * 512 + 1 * (y 1).val = (y 1).val; omega

theorem emb_row2 (t : Fin cfg0.N) (y : S1x512.Idx) : ((cfg0.win 2).blk t).view.emb y = y := by
  obtain ⟨-, -, -, -, -, e0, e1, -⟩ := block_index t
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-! ## The staged rows are the feature vectors -/

/-- A [512] vector laid out as a [1, 512] row, read at (0, f), is the vector at f. -/
theorem row_apply (v : S512.Idx → EReal) (h : S512.ShapeCasts S1x512) (f : Fin 512) :
    shapeCast S1x512 v h (ix2 0 f) = v (ix1 f) := by
  rw [shapeCast_apply v h (ix2 0 f) (ix1 f)]
  rw [Shape.rowMajor_val_one, Shape.rowMajor_val_two]
  show f.val = 0 * _ + f.val
  omega

/-- The first staged row is the weight vector as launched. -/
theorem staged_weights (c : Dev nD) (f : Fin 512) :
    V m c main_call0_v0 (ix2 0 f) = m ((c : Thread nD τ).loc main_arg1) (ix1 f) := by
  have e : (V m c main_call0_v0 : S1x512.Idx → EReal)
      = fun i => shapeCast S1x512 (m ((c : Thread nD τ).loc main_arg1) : S512.Idx → EReal) shapeCasts_S512_S1x512 i := by
    dsimp only [Gen.V, Gen.hostOps0]; after_results; rfl
  rw [e]
  exact row_apply _ _ f

/-- The second staged row is the bias vector as launched. -/
theorem staged_biases (c : Dev nD) (f : Fin 512) :
    V m c main_call0_v1 (ix2 0 f) = m ((c : Thread nD τ).loc main_arg2) (ix1 f) := by
  have e : (V m c main_call0_v1 : S1x512.Idx → EReal)
      = fun i => shapeCast S1x512 (m ((c : Thread nD τ).loc main_arg2) : S512.Idx → EReal) shapeCasts_S512_S1x512 i := by
    dsimp only [Gen.V, Gen.hostOps0]; after_results; rfl
  rw [e]
  exact row_apply _ _ f

/-! ## One slab's normalisation is the array's at that slab -/

/-- A block that is slab b of an array has that slab's sum. -/
theorem bSum_eq_slab (g : SX.Idx → EReal) (b : Fin 32) (g0 : SB.Idx → EReal)
    (h : ∀ y, g0 y = g (ix3 b (y 1) (y 2))) : bSum g0 = slab g b := by
  unfold bSum slab
  refine Finset.sum_congr rfl fun r _ => Finset.sum_congr rfl fun f _ => ?_
  rw [h]

/-- The set normalisation of a block that is slab b of the array x, with the rows the vectors w and β, is the array's
    set normalisation at slab b: mean, variance, scale and shift are all functions of the slab's two sums. -/
theorem bOut_eq_kOut (x : SX.Idx → EReal) (w β : SV.Idx → EReal) (b : Fin 32)
    (x0 : SB.Idx → EReal) (x1 x2 : SR.Idx → EReal)
    (h0 : ∀ y, x0 y = x (ix3 b (y 1) (y 2)))
    (h1 : ∀ f, x1 (ix2 0 f) = w (ix1 f)) (h2 : ∀ f, x2 (ix2 0 f) = β (ix1 f)) (y : SB.Idx) :
    bOut x0 x1 x2 y = kOut x w β (ix3 b (y 1) (y 2)) := by
  have hmean : bMean x0 = kMean x b := by
    unfold bMean kMean; rw [bSum_eq_slab x b x0 h0]
  have hvar : bVar x0 = kVar x b := by
    unfold bVar kVar
    rw [hmean, bSum_eq_slab (fun i => x i * x i) b (fun i => x0 i * x0 i) (fun y => by rw [h0])]
  have hscale : ∀ f, bScale x0 x1 f = kScale x w b f := fun f => by
    unfold bScale kScale; rw [h1, hvar]
  have hshift : ∀ f, bShift x0 x1 x2 f = kShift x w β b f := fun f => by
    unfold bShift kShift; rw [h2, hmean, hscale]
  unfold bOut kOut
  show x0 y * bScale x0 x1 (y 2) + bShift x0 x1 x2 (y 2) = x (ix3 b (y 1) (y 2)) * kScale x w b (y 2) + kShift x w β b (y 2)
  exact congrArg₂ (fun p q : EReal => p + q) (congrArg₂ (fun p q : EReal => p * q) (h0 y) (hscale (y 2))) (hshift (y 2))

/-! ## What a point writes back -/

/-- Point t writes back block t of the array's set normalisation. -/
theorem flushed_eq (c : Dev nD) (t : Fin cfg0.N) :
    (dats m 0 c).flushed 3 t = ((cfg0.win 3).blk t).view.read (Elt Ideal)
      (kOut (m ((c : Thread nD τ).loc main_arg0)) (m ((c : Thread nD τ).loc main_arg1)) (m ((c : Thread nD τ).loc main_arg2))) := by
  rw [Value.flushed3, out_block]
  funext y
  show bOut (iblk m c 0 t) (iblk m c 1 t) (iblk m c 2 t) y
    = kOut (m ((c : Thread nD τ).loc main_arg0)) (m ((c : Thread nD τ).loc main_arg1)) (m ((c : Thread nD τ).loc main_arg2))
        (((cfg0.win 3).blk t).view.emb y)
  rw [emb_out t y]
  refine bOut_eq_kOut _ _ _ (slabOf t) _ _ _ (fun y' => ?_) (fun f => ?_) (fun f => ?_) y
  · show V m c main_arg0 (((cfg0.win 0).blk t).view.emb y') = _
    exact (congrArg (V m c main_arg0) (emb_in t y')).trans (congrFun (V_main_arg0 m c) _)
  · show V m c main_call0_v0 (((cfg0.win 1).blk t).view.emb (ix2 0 f)) = _
    exact (congrArg (V m c main_call0_v0) (emb_row1 t (ix2 0 f))).trans (staged_weights m c f)
  · show V m c main_call0_v1 (((cfg0.win 2).blk t).view.emb (ix2 0 f)) = _
    exact (congrArg (V m c main_call0_v1) (emb_row2 t (ix2 0 f))).trans (staged_biases m c f)

/-! ## The slabs tile the array -/

/-- An index is in point t's output block iff each coordinate is in the block's range on its axis. -/
theorem mem_blk (t : Fin cfg0.N) (i : S32x4096x512.Idx) :
    i ∈ ((cfg0.win 3).blk t).view.set ↔ ∀ a : Fin 3, win0_3.index t a * S1x4096x512.size a ≤ (i a).val
      ∧ (i a).val < win0_3.index t a * S1x4096x512.size a + S1x4096x512.size a := by
  show i ∈ ((View.whole main_v0).slice (win0_3.rect t)).set ↔ _
  rw [View.set_slice_whole, Rect.mem_set_unit]
  exact Iff.rfl

/-- Index (b, r, f) is in the block of point b. -/
theorem cover (i : S32x4096x512.Idx) :
    ∃ t : Fin cfg0.N, (cfg0.win 3).flush t = true ∧ i ∈ ((cfg0.win 3).blk t).view.set := by
  refine ⟨Fin.cast N_0.symm (i 0), flush0_3 _, ?_⟩
  rw [mem_blk]
  obtain ⟨-, -, -, -, -, -, -, e0, e1, e2⟩ := block_index (Fin.cast N_0.symm (i 0))
  have ht : (Fin.cast N_0.symm (i 0)).val = (i 0).val := rfl
  have h1 : (i 1).val < 4096 := (i 1).isLt
  have h2 : (i 2).val < 512 := (i 2).isLt
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 4096 ≤ (i 1).val ∧ (i 1).val < win0_3.index _ (1 : Fin 3) * 4096 + 4096; omega
  | ⟨2, _⟩ => show win0_3.index _ (2 : Fin 3) * 512 ≤ (i 2).val ∧ (i 2).val < win0_3.index _ (2 : Fin 3) * 512 + 512; omega

/-! ## The array after the run -/

/-- The output array after the run is the set normalisation of the argument arrays. -/
theorem final (c : Dev nD) : (dats m 0 c).arrAt 3 cfg0.N
    = kOut (m ((c : Thread nD τ).loc main_arg0)) (m ((c : Thread nD τ).loc main_arg1)) (m ((c : Thread nD τ).loc main_arg2)) :=
  (dats m 0 c).arrAt_eq_of_cover 3 _ (fun t _ => flushed_eq m c t) cover

/-- Every run ends with the output array at the set normalisation of the arguments, and the arguments as launched. -/
theorem run : θ_run defs (onTc (τ := τ) (main (F := Ideal))) ⟨m, fun _ => 0, ρ⟩ fun r => ∀ c : Dev nD,
      r.2.mem ((c : Thread nD τ).loc main_v0) = kOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefValue.lean ====
/-
  The reference program read as the set normalisation it computes.

  The program's two sums run over axes 1 and 2 of a [32, 4096, 512] array into [32]: at batch element b the
  source indices that drop to b are exactly those whose first coordinate is b, so the sum is the slab sum
  of the specification. Every other operation reads one element of each operand, and the broadcasts read the
  mean and the standard deviation of the batch element the index lies in.
-/
import proofs.«153717_g83167746719796_feedfinal_518_8_alg».proof.Proof.Spec
import proofs.«153717_g83167746719796_feedfinal_518_8_alg».proof.Proof.Gen.ReferenceIdeal.Read
import Idealize.ShloMosaic.PureOps.Ideal.Laws
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.SetNorm

/-- A source index drops (axes 1 and 2 removed) to b exactly when its first coordinate is b. -/
theorem drop_eq_iff (i : S32x4096x512.Idx) (b : Fin 32) :
    reducesTo_S32x4096x512_S32_d1_2.drop i = ix1 b ↔ (i 0).val = b.val := by
  constructor
  · intro h
    have h0 : ((reducesTo_S32x4096x512_S32_d1_2.drop i) 0).val = b.val := by rw [h]
    exact (Shape.ReducesTo.drop_apply_val_of_eq reducesTo_S32x4096x512_S32_d1_2 i 0 0).symm.trans h0
  · intro h
    funext a
    match a with
    | ⟨0, _⟩ =>
      exact Fin.ext ((Shape.ReducesTo.drop_apply_val_of_eq reducesTo_S32x4096x512_S32_d1_2 i 0 0).trans h)

/-- The sum over axes 1 and 2 from the initial value 0, at batch element b, is the slab sum. -/
theorem hostSum_eq_slab (g : S32x4096x512.Idx → EReal) (b : Fin 32) :
    Ideal.hostReduceAdd reducesTo_S32x4096x512_S32_d1_2 g 0 (ix1 b) = slab g b := by
  unfold Ideal.hostReduceAdd slab
  rw [zero_add, Finset.sum_filter, sum_idx3]
  rw [Finset.sum_eq_single b]
  · refine Finset.sum_congr rfl fun r _ => Finset.sum_congr rfl fun f _ => ?_
    rw [if_pos ((drop_eq_iff _ b).2 rfl)]
  · intro a _ ha
    refine Finset.sum_eq_zero fun r _ => Finset.sum_eq_zero fun f _ => ?_
    rw [if_neg]
    intro h
    exact ha (Fin.ext ((drop_eq_iff _ b).1 h))
  · intro h
    exact absurd (Finset.mem_univ _) h

/-- The first sum: the slab sum of the argument. -/
theorem v0_read (x : (⟨S32x4096x512, .f32⟩ : BufTy).Contents (Elt Ideal)) (b : Fin 32) :
    val_main_v0 (F := Ideal) x (ix1 b) = slab x b := by
  unfold val_main_v0
  rw [hostReduceAdd_apply, val_main_cst_apply, Ideal.ofBits_def, zero_word]
  exact hostSum_eq_slab x b

/-- The mean, broadcast to [32, 1, 1]: at an index in batch element b, the mean of slab b. -/
theorem v3_read (x : (⟨S32x4096x512, .f32⟩ : BufTy).Contents (Elt Ideal)) (k : S32x1x1.Idx) (b : Fin 32)
    (hb : (k 0).val = b.val) : val_main_v3 (F := Ideal) x k = rMean x b := by
  have hk : idx_main_v1 k = ix1 b := funext fun a => match a with | ⟨0, _⟩ => Fin.ext hb
  rw [val_main_v3_apply, val_main_v1_apply, val_main_v2_apply, val_main_cst_0_apply, Ideal.hostDivf_def,
    Ideal.ofBits_def, hk, v0_read]
  rfl

/-- The centred argument, squared. -/
theorem v6_read (x : (⟨S32x4096x512, .f32⟩ : BufTy).Contents (Elt Ideal)) (i : S32x4096x512.Idx) (b : Fin 32)
    (hb : (i 0).val = b.val) :
    val_main_v6 (F := Ideal) x i = (x i - rMean x b) * (x i - rMean x b) := by
  rw [val_main_v6_apply, val_main_v5_apply, val_main_v4_apply, v3_read x _ b hb, Ideal.mulf_def, Ideal.subf_def]

/-- The second sum: the slab sum of the squared centred argument. -/
theorem v7_read (x : (⟨S32x4096x512, .f32⟩ : BufTy).Contents (Elt Ideal)) (b : Fin 32) :
    val_main_v7 (F := Ideal) x (ix1 b) = slab (fun i => (x i - rMean x (i 0)) * (x i - rMean x (i 0))) b := by
  have h6 : val_main_v6 (F := Ideal) x = fun i => (x i - rMean x (i 0)) * (x i - rMean x (i 0)) :=
    funext fun i => v6_read x i (i 0) rfl
  unfold val_main_v7
  rw [hostReduceAdd_apply, val_main_cst_1_apply, Ideal.ofBits_def, zero_word, h6]
  exact hostSum_eq_slab _ b

/-- The standard deviation, broadcast to [32, 1, 1]. -/
theorem v15_read (x : (⟨S32x4096x512, .f32⟩ : BufTy).Contents (Elt Ideal)) (k : S32x1x1.Idx) (b : Fin 32)
    (hb : (k 0).val = b.val) : val_main_v15 (F := Ideal) x k = Ideal.sqrt (rVar x b) := by
  have hk : idx_main_v8 k = ix1 b := funext fun a => match a with | ⟨0, _⟩ => Fin.ext hb
  rw [val_main_v15_apply, val_main_v14_apply, val_main_v10_apply, val_main_v8_apply, val_main_v9_apply,
    val_main_cst_2_apply, val_main_v13_apply, val_main_cst_3_apply, hk, v7_read, Ideal.hostUnary_sqrt_def,
    Ideal.addf_def, Ideal.hostDivf_def, Ideal.ofBits_def, Ideal.ofBits_def]
  rfl

theorem ref_is_rOut (x : (⟨S32x4096x512, .f32⟩ : BufTy).Contents (Elt Ideal)) (w β : (⟨S512, .f32⟩ : BufTy).Contents (Elt Ideal)) :
    val_main_v23 (F := Ideal) x w β = rOut x w β := by
  funext i
  have hw : idx_main_v18 (idx_main_v19 i) = ix1 (n := 512) (i 2) := funext fun a => match a with | ⟨0, _⟩ => rfl
  have hβ : idx_main_v21 (idx_main_v22 i) = ix1 (n := 512) (i 2) := funext fun a => match a with | ⟨0, _⟩ => rfl
  rw [val_main_v23_apply, val_main_v20_apply, val_main_v22_apply, val_main_v21_apply, val_main_v19_apply,
    val_main_v18_apply, val_main_v17_apply, val_main_v12_apply, val_main_v11_apply, val_main_v16_apply,
    v3_read x _ (i 0) rfl, v15_read x _ (i 0) rfl, hw, hβ, Ideal.addf_def, Ideal.mulf_def, Ideal.hostDivf_def,
    Ideal.subf_def]
  rfl

end Cert.ReferenceIdeal.RefValue

end
-- ==== Proof.Algebra.lean ====
/-
  The two set normalisations agree on finite inputs.

  For real entries X the slab sums are coercions of real double sums. Write n = 2^21 for the number of entries
  of a slab, S1 and S2 for the slab's sum and sum of squares, and mu = S1 / n. Since the slab has n entries,
  sum (X - mu)^2 = S2 - 2 mu S1 + n mu^2 = S2 - n mu^2, so both variances are the real
  v = S2 / n - mu^2 + eps, and v >= eps > 0 because it is a mean of squares plus eps. Hence the square root
  and the reciprocal square root take their ordinary real branches, sqrt v is not zero, and what remains is
  ((X - mu) * (1 / sqrt v)) * W + B = X * (W * (sqrt v)^-1) + (B - mu * (W * (sqrt v)^-1)), a ring identity.
-/
import proofs.«153717_g83167746719796_feedfinal_518_8_alg».proof.Proof.Spec
import Mathlib.Data.EReal.Basic
import Mathlib.Data.EReal.Operations
import Mathlib.Data.EReal.Inv
import Mathlib.Analysis.SpecialFunctions.Pow.Real
import Mathlib.Tactic.Ring
import Mathlib.Tactic.Linarith
import Mathlib.Tactic.Positivity
import Mathlib.Tactic.NormNum

noncomputable section

namespace Cert.SetNorm

open Idealize.ShloMosaic Idealize.ShloMosaic.ValueIdx

/-! ## Finite sums of coerced reals -/

/-- A finite sum of coerced reals is the coercion of the real sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The real sum of g over slab b. -/
def rslab (g : SX.Idx → ℝ) (b : Fin 32) : ℝ := ∑ r : Fin 4096, ∑ f : Fin 512, g (ix3 b r f)

/-- The slab sum of coerced reals is the coercion of the real slab sum. -/
theorem slab_coe (g : SX.Idx → ℝ) (b : Fin 32) :
    slab (fun i => (g i : EReal)) b = ((rslab g b : ℝ) : EReal) := by
  unfold slab rslab
  simp only [coe_sum]

/-- A slab sum only sees its function on the slab. -/
theorem slab_congr {g g' : SX.Idx → EReal} {b : Fin 32}
    (h : ∀ (r : Fin 4096) (f : Fin 512), g (ix3 b r f) = g' (ix3 b r f)) : slab g b = slab g' b := by
  unfold slab
  exact Finset.sum_congr rfl fun r _ => Finset.sum_congr rfl fun f _ => h r f

/-! ## The real mean and variance of a slab -/

/-- The slab's mean: its sum over its 2^21 entries. -/
def rmu (X : SX.Idx → ℝ) (b : Fin 32) : ℝ := rslab X b * (1 / 2097152)

/-- The slab's variance in the form E[x^2] - mu^2, plus the stabiliser e. -/
def rv (X : SX.Idx → ℝ) (b : Fin 32) (e : ℝ) : ℝ :=
  rslab (fun i => X i * X i) b * (1 / 2097152) - rmu X b * rmu X b + e

/-- sum (X - m)^2 = S2 - 2 m S1 + n m^2: the slab has n = 2^21 entries. -/
theorem rslab_sq (X : SX.Idx → ℝ) (b : Fin 32) (m : ℝ) :
    rslab (fun i => (X i - m) * (X i - m)) b
      = rslab (fun i => X i * X i) b - 2 * m * rslab X b + 2097152 * (m * m) := by
  unfold rslab
  have h : ∀ (r : Fin 4096) (f : Fin 512), (X (ix3 b r f) - m) * (X (ix3 b r f) - m)
      = X (ix3 b r f) * X (ix3 b r f) - 2 * m * X (ix3 b r f) + m * m := by
    intro r f; ring
  simp only [h, Finset.sum_add_distrib, Finset.sum_sub_distrib, ← Finset.mul_sum, Finset.sum_const,
    Finset.card_univ, Fintype.card_fin, nsmul_eq_mul]
  push_cast; ring

/-- A slab sum of squares is nonnegative. -/
theorem rslab_sq_nonneg (X : SX.Idx → ℝ) (b : Fin 32) (m : ℝ) :
    0 ≤ rslab (fun i => (X i - m) * (X i - m)) b := by
  unfold rslab
  exact Finset.sum_nonneg fun r _ => Finset.sum_nonneg fun f _ => mul_self_nonneg _

/-- The mean of (X - mu)^2 plus e is the same real as E[x^2] - mu^2 + e. -/
theorem rv_eq (X : SX.Idx → ℝ) (b : Fin 32) (e : ℝ) :
    rslab (fun i => (X i - rmu X b) * (X i - rmu X b)) b * (1 / 2097152) + e = rv X b e := by
  rw [rslab_sq]
  have hS : rslab X b = 2097152 * rmu X b := by unfold rmu; ring
  unfold rv
  rw [hS]; ring

/-- The variance plus a positive stabiliser is positive. -/
theorem rv_pos (X : SX.Idx → ℝ) (b : Fin 32) {e : ℝ} (he : 0 < e) : 0 < rv X b e := by
  rw [← rv_eq]
  have h := rslab_sq_nonneg X b (rmu X b)
  have : 0 ≤ rslab (fun i => (X i - rmu X b) * (X i - rmu X b)) b * (1 / 2097152) :=
    mul_nonneg h (by norm_num)
  linarith

/-! ## Both sides' means and variances as coerced reals -/

theorem kMean_coe (X : SX.Idx → ℝ) (b : Fin 32) :
    kMean (fun i => (X i : EReal)) b = ((rmu X b : ℝ) : EReal) := by
  rw [kMean, slab_coe, invN_eq, ← EReal.coe_mul, rmu]

theorem rMean_coe (X : SX.Idx → ℝ) (b : Fin 32) :
    rMean (fun i => (X i : EReal)) b = ((rmu X b : ℝ) : EReal) := by
  rw [rMean, slab_coe, bigN_eq, Ideal.div_coe (by norm_num), ← EReal.coe_mul, rmu]

theorem kVar_coe (X : SX.Idx → ℝ) (b : Fin 32) {e : ℝ} (he : eps = (e : EReal)) :
    kVar (fun i => (X i : EReal)) b = ((rv X b e : ℝ) : EReal) := by
  have hsq : (fun i : SX.Idx => ((X i : ℝ) : EReal) * (X i : EReal))
      = fun i => ((X i * X i : ℝ) : EReal) := by
    funext i; rw [EReal.coe_mul]
  rw [kVar, kMean_coe, hsq, slab_coe, invN_eq, he, ← EReal.coe_mul, ← EReal.coe_mul, ← EReal.coe_sub,
    ← EReal.coe_add, rv]

theorem rVar_coe (X : SX.Idx → ℝ) (b : Fin 32) {e : ℝ} (he : eps = (e : EReal)) :
    rVar (fun i => (X i : EReal)) b = ((rv X b e : ℝ) : EReal) := by
  have hs : slab (fun i : SX.Idx => ((X i : EReal) - rMean (fun i => (X i : EReal)) (i 0))
        * ((X i : EReal) - rMean (fun i => (X i : EReal)) (i 0))) b
      = slab (fun i => (((X i - rmu X b) * (X i - rmu X b) : ℝ) : EReal)) b := by
    refine slab_congr fun r f => ?_
    show ((X (ix3 b r f) : EReal) - rMean (fun i => (X i : EReal)) b)
        * ((X (ix3 b r f) : EReal) - rMean (fun i => (X i : EReal)) b) = _
    rw [rMean_coe, ← EReal.coe_sub, ← EReal.coe_mul]
  rw [rVar, hs, slab_coe, bigN_eq, Ideal.div_coe (by norm_num), he, ← EReal.coe_mul, ← EReal.coe_add, rv_eq]

/-! ## The two outputs agree -/

/-- One entry of one slab: with real entry t, weight c and offset d, normalising then scaling is the fused
    multiply-add with the folded scale and shift. -/
theorem out_entry (X : SX.Idx → ℝ) (b : Fin 32) (t c d : ℝ) :
    Ideal.div ((t : EReal) - rMean (fun i => (X i : EReal)) b)
        (Ideal.sqrt (rVar (fun i => (X i : EReal)) b)) * (c : EReal) + (d : EReal)
      = (t : EReal) * ((c : EReal) * Ideal.rsqrt (kVar (fun i => (X i : EReal)) b))
        + ((d : EReal) - kMean (fun i => (X i : EReal)) b
            * ((c : EReal) * Ideal.rsqrt (kVar (fun i => (X i : EReal)) b))) := by
  obtain ⟨e, he0, he⟩ := eps_eq
  have hv : 0 < rv X b e := rv_pos X b he0
  have hs : 0 < Real.sqrt (rv X b e) := Real.sqrt_pos.mpr hv
  rw [rMean_coe, rVar_coe X b he, kMean_coe, kVar_coe X b he, Ideal.sqrt_coe, Ideal.rsqrt_coe,
    if_neg (not_lt.mpr hv.le), if_neg (not_lt.mpr hv.le), if_neg hv.ne', Ideal.div_coe hs.ne']
  rw [← EReal.coe_sub, ← EReal.coe_mul, ← EReal.coe_mul, ← EReal.coe_add, ← EReal.coe_mul, ← EReal.coe_mul,
    ← EReal.coe_mul, ← EReal.coe_sub, ← EReal.coe_add]
  congr 1
  ring

theorem rOut_eq_kOut (x : SX.Idx → EReal) (w β : SV.Idx → EReal)
    (hx : ∀ i, ∃ r : ℝ, x i = (r : EReal)) (hw : ∀ j, ∃ r : ℝ, w j = (r : EReal)) (hβ : ∀ j, ∃ r : ℝ, β j = (r : EReal)) :
    rOut x w β = kOut x w β := by
  choose X hX using hx
  choose W hW using hw
  choose B hB using hβ
  obtain rfl : x = fun i => (X i : EReal) := funext hX
  funext i
  have h := out_entry X (i 0) (X i) (W (ix1 (i 2))) (B (ix1 (i 2)))
  rw [← hW, ← hB] at h
  exact h

end Cert.SetNorm

end
-- ==== Proof.Finite.lean ====
/-
  Finite inputs. The precondition is the conjunction of three statements "every entry of the array has
  absolute value below +infinity", one per argument array, each an and-reduction over all axes of the
  entrywise comparison |x| < +infinity. Over the extended reals |x| is max x (-x) and the word compared
  against is the top element, so each entry is neither top nor bottom: it is a real number.
-/
import proofs.«153717_g83167746719796_feedfinal_518_8_alg».proof.Pre_finite_inputs
import proofs.«153717_g83167746719796_feedfinal_518_8_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

namespace Cert.SetNormFinite

open Idealize.ShloMosaic

/-- The word 0x7F800000 is the top element of the extended reals. -/
theorem inf_word : Ideal.ofBits .f32 0x7F800000#32 = (⊤ : EReal) := by
  simp [Ideal.ofBits, Ideal.ieee]

/-- An extended real x with max x (-x) < top is a real: top fails on x itself, bottom on -x. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_word] at h
  unfold Ideal.cmp at h
  induction x using EReal.rec with
  | bot => simp at h
  | coe r => exact ⟨r, rfl⟩
  | top => simp at h

/-- The scalar shape has exactly one index. -/
instance : Subsingleton Cert.Pre_finite_inputs.S_.Idx := ⟨fun a b => funext fun d => d.elim0⟩

theorem real_of_pre [Cert.Pre_finite_inputs.Facts]
    (a0 : FVec Ideal Cert.Pre_finite_inputs.S32x4096x512 .f32) (a1 a2 : FVec Ideal Cert.Pre_finite_inputs.S512 .f32)
    (h : Cert.Pre_finite_inputs.fn (F := Ideal) a0 a1 a2 = fun _ => 1#1) :
    (∀ i, ∃ r : ℝ, a0 i = (r : EReal)) ∧ (∀ j, ∃ r : ℝ, a1 j = (r : EReal)) ∧ (∀ j, ∃ r : ℝ, a2 j = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun j => ?_, fun j => ?_⟩
  · exact real_of_abs_lt _ (Host.reduce_andi_all _ _ _ _ _ h0' i)
  · exact real_of_abs_lt _ (Host.reduce_andi_all _ _ _ _ _ h1 j)
  · exact real_of_abs_lt _ (Host.reduce_andi_all _ _ _ _ _ h2 j)

end Cert.SetNormFinite
-- ==== Proof.lean ====
/-
  Set normalisation: for each batch element, normalise its whole [4096, 512] slab by the slab's mean and variance,
  then scale and shift per feature.

  The kernel handles one slab per grid point: it adds up the slab and its squares in 64-row chunks, takes
  mean = s1 * 2^-21 and var = s2 * 2^-21 - mean^2, and writes x * (w * rsqrt(var + eps)) + (b - mean * w * rsqrt(var + eps)).
  The reference takes mean = s1 / 2^21, var = mean of (x - mean)^2, and returns ((x - mean) / sqrt(var + eps)) * w + b.
  On finite inputs these are one function of the arguments over the extended reals: the two variances are the same
  nonnegative real, eps is positive, so rsqrt is 1 / sqrt there, and the rest is a ring identity.

  The three frames are the generated frame runs (the reference's is its run with the result dropped); the idealization
  rewrote nothing, so there is nothing to preserve; the equality of results joins the kernel's array after the run
  (each slab's block is the function above of the slab) with the reference's run read stage by stage.
-/
import proofs.«153717_g83167746719796_feedfinal_518_8_alg».proof.Defs
import proofs.«153717_g83167746719796_feedfinal_518_8_alg».proof.Proof.Gen.Kernel
import proofs.«153717_g83167746719796_feedfinal_518_8_alg».proof.Proof.Gen.Kernel.Skeleton
import proofs.«153717_g83167746719796_feedfinal_518_8_alg».proof.Proof.Gen.Kernel.Launch
import proofs.«153717_g83167746719796_feedfinal_518_8_alg».proof.Proof.Gen.Kernel.Points
import proofs.«153717_g83167746719796_feedfinal_518_8_alg».proof.Proof.Gen.Kernel.Frame
import proofs.«153717_g83167746719796_feedfinal_518_8_alg».proof.Proof.Gen.KernelIdeal
import proofs.«153717_g83167746719796_feedfinal_518_8_alg».proof.Proof.Gen.KernelIdeal.Skeleton
import proofs.«153717_g83167746719796_feedfinal_518_8_alg».proof.Proof.Gen.KernelIdeal.Launch
import proofs.«153717_g83167746719796_feedfinal_518_8_alg».proof.Proof.Gen.KernelIdeal.Points
import proofs.«153717_g83167746719796_feedfinal_518_8_alg».proof.Proof.Gen.KernelIdeal.Frame
import proofs.«153717_g83167746719796_feedfinal_518_8_alg».proof.Proof.Gen.ReferenceIdeal
import proofs.«153717_g83167746719796_feedfinal_518_8_alg».proof.Proof.Gen.Pre_finite_inputs
import proofs.«153717_g83167746719796_feedfinal_518_8_alg».proof.Proof.Gen.KernelIdeal.Value
import proofs.«153717_g83167746719796_feedfinal_518_8_alg».proof.Proof.Gen.ReferenceIdeal.Run
import proofs.«153717_g83167746719796_feedfinal_518_8_alg».proof.Proof.Gen.ReferenceIdeal.Read
import proofs.«153717_g83167746719796_feedfinal_518_8_alg».proof.Proof.KernelValue
import proofs.«153717_g83167746719796_feedfinal_518_8_alg».proof.Proof.RefValue
import proofs.«153717_g83167746719796_feedfinal_518_8_alg».proof.Proof.Algebra
import proofs.«153717_g83167746719796_feedfinal_518_8_alg».proof.Proof.Finite
import Idealize.ShloMosaic.Adequacy
import Idealize.ShloMosaic.Init

noncomputable section

namespace Cert.Proof

open Idealize.ShloMosaic Idealize.SL.Sem

/-- Each program runs and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, finite by the precondition, both runs end with the normalised array:
    the kernel's by slabs, the reference's stage by stage, one function of the arguments. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.SetNormFinite.real_of_pre _ _ _ (hpre c)
  rw [Cert.ReferenceIdeal.Read.val_main_v23_eq, Cert.ReferenceIdeal.RefValue.ref_is_rOut,
    (hagree c).1, (hagree c).2.1, (hagree c).2.2]
  exact Cert.SetNorm.rOut_eq_kOut _ _ _ h0 h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
